-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x10000 : Shape := ⟨3, ![1, 10000, 10000]⟩
abbrev S1x128x128 : Shape := ⟨3, ![1, 128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S1x128x128 : S_.BroadcastsInDim S1x128x128 (![] : Fin 0 → Fin S1x128x128.rank)
  reducesTo_S1x128x128_S_d0_1_2 : S1x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S1x10000x10000 .f32) (main_arg2 : FVec F S1x128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S1x128x128 .f32 := Host.absf main_arg2
  let main_cst_2 : FVec F S_ .f32 := constant S_ .f32 0x7F800000#32
  let main_v10 : FVec F S1x128x128 .f32 := broadcastInDim S1x128x128 ![] bcast_S_S1x128x128 main_cst_2
  let main_v11 : IVec S1x128x128 1 := cmpf .olt main_v9 main_v10
  let main_c_3 : IVec S_ 1 := constantI S_ 1 1#1
  let main_v12 : IVec S_ 1 := (fun x v => Host.reduce IntOp.andi x v reducesTo_S1x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S1x10000x10000 : Shape := ⟨3, ![1, 10000, 10000]⟩
abbrev S1x128x128 : Shape := ⟨3, ![1, 128, 128]⟩
abbrev S128 : Shape := ⟨1, ![128]⟩
abbrev S1x128 : Shape := ⟨2, ![1, 128]⟩
abbrev S1x256x10000 : Shape := ⟨3, ![1, 256, 10000]⟩
abbrev S256x128 : Shape := ⟨2, ![256, 128]⟩
abbrev S1x10000x128 : Shape := ⟨3, ![1, 10000, 128]⟩
abbrev S128x128 : Shape := ⟨2, ![128, 128]⟩
abbrev S256x10000 : Shape := ⟨2, ![256, 10000]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S1x256x10000, .f32⟩
  | .local _ .vmem, ⟨1, _⟩ => ⟨S1x256x10000, .f32⟩
  | .local _ .vmem, ⟨2, _⟩ => ⟨S10000x128, .f32⟩
  | .local _ .vmem, ⟨3, _⟩ => ⟨S1x128x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S1x10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  packedbf16_S1x10000x128_S1x10000x128_0_0_0 : (Rect.unit (s := S1x10000x128) ![0, 0, 0] S1x10000x128.size inb_S1x10000x128_S1x10000x128_0_0_0).PackedRows (EltTy.packing .bf16)
  inb_S1x256x10000_S1x256x10000_0_0_0 : ∀ a, (![0, 0, 0] : Fin 3 → Nat) a + S1x256x10000.size a ≤ S1x256x10000.size a
  h_S1x256x10000 : 0 < S1x256x10000.numel
  shapeCasts_S1x256x10000_S256x10000 : S1x256x10000.ShapeCasts S256x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  reduces_S256x128_S256 : S256x128.Reduces [1] S256
  shapeCasts_S256_S256x1 : S256.ShapeCasts S256x1
  broadcasts_S256x1_S256x128 : S256x1.Broadcasts S256x128
  inb_S256x128_S256x128_0_0 : ∀ a, (![0, 0] : Fin 2 → Nat) a + S256x128.size a ≤ S256x128.size a
  h_S256x128 : 0 < S256x128.numel
  dot_S10000x128_S128x128_S10000x128_1_0_0_1_n_n_wf : DotDims.WF S10000x128 S128x128 S10000x128 [1] [0] [0] [1] [] []
  dot_S256x10000_S10000x128_S256x128_1_0_0_1_n_n_wf : DotDims.WF S256x10000 S10000x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x256x10000.size a < S1x10000x10000.size a
  hwx0_0 : ∀ i : grid0.Coords, EltTy.bits .f32 = 32 ∨ (Rect.unit (s := S1x10000x10000) (fun a => cc0_transform_0 i a * S1x256x10000.size a) (fun a => (Pipeline.Clip.of (cc0_transform_0 i a) (S1x256x10000.size a) (S1x10000x10000.size a)).extent (S1x256x10000.size a)) fun a => Pipeline.Clip.inb (Pipeline.Clip.ok_of (hstart0_0 i a))).WholeWords (EltTy.packing .f32)
  hwxs0_0 : ∀ i : grid0.Coords, EltTy.bits .f32 = 32 ∨ (Rect.unit (s := S1x256x10000) (fun _ => 0) (fun a => (Pipeline.Clip.of (cc0_transform_0 i a) (S1x256x10000.size a) (S1x10000x10000.size a)).extent (S1x256x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S1x128x128.size a
  hwx0_2 : ∀ i : grid0.Coords, EltTy.bits .f32 = 32 ∨ (Rect.block (s := S1x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x128.size a < S10000x128.size a
  hwx0_4 : ∀ i : grid0.Coords, EltTy.bits .f32 = 32 ∨ (Rect.unit (s := S10000x128) (fun a => cc0_transform_4 i a * S256x128.size a) (fun a => (Pipeline.Clip.of (cc0_transform_4 i a) (S256x128.size a) (S10000x128.size a)).extent (S256x128.size a)) fun a => Pipeline.Clip.inb (Pipeline.Clip.ok_of (hstart0_4 i a))).WholeWords (EltTy.packing .f32)
  hwxs0_4 : ∀ i : grid0.Coords, EltTy.bits .f32 = 32 ∨ (Rect.unit (s := S256x128) (fun _ => 0) (fun a => (Pipeline.Clip.of (cc0_transform_4 i a) (S256x128.size a) (S10000x128.size a)).extent (S256x128.size a)) fun a => (Nat.zero_add _).trans_le (Pipeline.Clip.extent_le (Pipeline.Clip.ok_of (hstart0_4 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf

abbrev win0_0 : Pipeline.Window sig grid0 :=
  Pipeline.Window.ofSpecClip (Memref.whole main_arg1) S1x256x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S256x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S1x10000x10000 : Shape := ⟨3, ![1, 10000, 10000]⟩
abbrev S1x128x128 : Shape := ⟨3, ![1, 128, 128]⟩
abbrev S128 : Shape := ⟨1, ![128]⟩
abbrev S_ : Shape := ⟨0, ![]⟩
abbrev S10000x10000 : Shape := ⟨2, ![10000, 10000]⟩
abbrev S128x128 : Shape := ⟨2, ![128, 128]⟩
abbrev S1x128 : Shape := ⟨2, ![1, 128]⟩
abbrev S10000 : Shape := ⟨1, ![10000]⟩
abbrev S10000x1 : Shape := ⟨2, ![10000, 1]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x10000, .f32⟩
  | .hbm, ⟨7, _⟩ => ⟨S128x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  shapeCasts_S1x10000x10000_S10000x10000 : S1x10000x10000.ShapeCasts S10000x10000
  shapeCasts_S1x128x128_S128x128 : S1x128x128.ShapeCasts S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelBody.lean ====
/-
  The frame of the fused graph-convolution kernel, for either reading of its floats.

  One pallas_call walks forty row bands of the adjacency. At the first grid point the body multiplies the feature
  array by the weight array and keeps the product in a scratch buffer; at every point it multiplies the band's 256 rows
  by that product, adds the bias row and divides each row by the larger of its Euclidean norm and a constant, and stores
  the 256 result rows. The last band has only sixteen rows inside the arrays: its fetch leaves the other rows of the
  staging buffer at words nothing names, and its write-back moves only the sixteen rows.

  What is proved here, for any float instance: the body at a generic point (two runs: the first point, which writes
  the scratch, and the later ones, which read it), the proof data (the scratch carried in the region invariant, the
  adjacency and result windows described on the rows inside the arrays only), the body obligation in two forms — in
  full, given that result rows inside the array do not depend on adjacency rows outside it, and with the result window
  forgotten — and the two runs they give: one that names the result array, one that only keeps the arguments.
-/
import proofs.«144337_g32040456028641_cont_8to1_b_1227_8_alg».proof.Proof.Gen.Kernel.Launch
import proofs.«144337_g32040456028641_cont_8to1_b_1227_8_alg».proof.Proof.Gen.Kernel.Skeleton
import proofs.«144337_g32040456028641_cont_8to1_b_1227_8_alg».proof.Proof.Gen.Kernel.Points
import proofs.«144337_g32040456028641_cont_8to1_b_1227_8_alg».proof.Proof.Gen.Kernel.Frame
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's one branch

The body recomputes the hidden features `x · W` into its scratch at the first grid point only; every
point then multiplies its band of the adjacency by the scratch, adds the bias and normalizes each row. -/

/-- The branch condition as the body computes it from the grid coordinate. -/
abbrev firstPt (i : grid0.Coords) : Prop :=
  (Scalar.cmpi .ne (Scalar.extui (Scalar.cmpi .eq (BitVec.ofNat 32 (i 0).val) 0#32)) 0#32) = 1#1

/-- It holds at point 0 and nowhere else: decided over the forty points. -/
theorem firstPt_iff : ∀ t : Fin cfg0.N, firstPt (grid0.coords t) ↔ t.val = 0 :=
  (by decide +kernel : ∀ t : Fin grid0.N, firstPt (grid0.coords t) ↔ t.val = 0)

theorem hz2 : (![0, 0] : Fin 2 → Nat) = fun _ => 0 := funext fun a => by fin_cases a <;> rfl
theorem hz3 : (![0, 0, 0] : Fin 3 → Nat) = fun _ => 0 := funext fun a => by fin_cases a <;> rfl

/-- One unmasked store through the whole-shape rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- At a later point the body reads the adjacency band `x0`, the scratch `xs` and the bias row `x3`, and leaves
    in the output buffer the normalized rows `k0_pay2 x0 xs x3`; everything else is as it was. -/
theorem run_later (c : Dev nD) (i : grid0.Coords)
    (arg1 : Memref sig .tc .vmem S1x256x10000 .f32) (harg1 : arg1.IsWhole) (arg2 : Memref sig .tc .vmem S10000x128 .f32) (harg2 : arg2.IsWhole)
    (arg3 : Memref sig .tc .vmem S1x128x128 .f32) (harg3 : arg3.IsWhole) (arg4 : Memref sig .tc .vmem S1x128 .f32) (harg4 : arg4.IsWhole)
    (arg5 : Memref sig .tc .vmem S256x128 .f32) (harg5 : arg5.IsWhole) (arg6 : Memref sig .tc .vmem S1x10000x128 .bf16) (harg6 : arg6.IsWhole)
    (hc : ¬ firstPt i)
    (x0 : Vec F S1x256x10000 .f32) (x3 : Vec F S1x128 .f32) (xs : Vec F S1x10000x128 .bf16) (E : Set ℕ) (K : PUnit → sProp 𝕄) :
    iprop(owns (c : Thread nD τ) arg1 fullShare x0 ∗ owns (c : Thread nD τ) arg4 fullShare x3
          ∗ (∃ d, owns (c : Thread nD τ) arg5 fullShare d) ∗ owns (c : Thread nD τ) arg6 fullShare xs
          ∗ (iprop(owns (c : Thread nD τ) arg1 fullShare x0 ∗ owns (c : Thread nD τ) arg4 fullShare x3
              ∗ owns (c : Thread nD τ) arg5 fullShare (k0_pay2 x0 xs x3) ∗ owns (c : Thread nD τ) arg6 fullShare xs) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f0, %hf0, H0⟩, ⟨%f3, %hf3, H3⟩, ⟨%d4, %f4, -, H4⟩, ⟨%fs, %hfs, HS⟩, Hk⟩
  obtain rfl := harg1.eq_unread hf0; obtain rfl := harg4.eq_unread hf3; obtain rfl := harg6.eq_unread hfs
  sl_exec (disch := first | exact hc)
  sl_step
  iapply Hk
  isplitl [H0]
  · iexists _; isplitr; · ipureintro; exact hf0
    iexact H0
  isplitl [H3]
  · iexists _; isplitr; · ipureintro; exact hf3
    iexact H3
  isplitl [H4]
  · iexists _; isplitr
    swap; · iexact H4
    ipureintro
    refine (read_store_whole _ _ hz2 inb_S256x128_S256x128_0_0 _).trans ?_
    simp only [View.readAt_eq_ld, harg1.read_unread, harg4.read_unread, harg6.read_unread,
      View.ld_unit_zero (S := S1x256x10000) hz3, View.ld_unit_zero (S := S1x10000x128) hz3, View.ld_unit_zero (S := S1x128) hz2]
  · iexists _; isplitr; · ipureintro; exact hfs
    iexact HS

/-- At the first point the body first stores `k0_pay1 x1 x2` (the product of the feature block `x1` and the
    weight block `x2`) over whatever the scratch held, then goes on as at a later point with the scratch at that. -/
theorem run_first (c : Dev nD) (i : grid0.Coords)
    (arg1 : Memref sig .tc .vmem S1x256x10000 .f32) (harg1 : arg1.IsWhole) (arg2 : Memref sig .tc .vmem S10000x128 .f32) (harg2 : arg2.IsWhole)
    (arg3 : Memref sig .tc .vmem S1x128x128 .f32) (harg3 : arg3.IsWhole) (arg4 : Memref sig .tc .vmem S1x128 .f32) (harg4 : arg4.IsWhole)
    (arg5 : Memref sig .tc .vmem S256x128 .f32) (harg5 : arg5.IsWhole) (arg6 : Memref sig .tc .vmem S1x10000x128 .bf16) (harg6 : arg6.IsWhole)
    (hc : firstPt i)
    (x0 : Vec F S1x256x10000 .f32) (x1 : Vec F S10000x128 .f32) (x2 : Vec F S1x128x128 .f32) (x3 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3
          ∗ (∃ d, owns (c : Thread nD τ) arg5 fullShare d) ∗ (∃ d, owns (c : Thread nD τ) arg6 fullShare d)
          ∗ (iprop(owns (c : Thread nD τ) arg1 fullShare x0 ∗ owns (c : Thread nD τ) arg2 fullShare x1 ∗ owns (c : Thread nD τ) arg3 fullShare x2
              ∗ owns (c : Thread nD τ) arg4 fullShare x3
              ∗ owns (c : Thread nD τ) arg5 fullShare (k0_pay2 x0 (k0_pay1 x1 x2) x3) ∗ owns (c : Thread nD τ) arg6 fullShare (k0_pay1 x1 x2)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  sl_unfold_words
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_store_whole _ _ hz2 inb_S256x128_S256x128_0_0 _).trans ?_
    simp only [View.readAt_eq_ld, harg1.read_unread, harg2.read_unread, harg3.read_unread, harg4.read_unread,
      View.readCov_unit_zero (S := S1x10000x128) _ hz3,
      View.ld_unit_zero (S := S1x256x10000) hz3, View.ld_unit_zero (S := S10000x128) hz2, View.ld_unit_zero (S := S1x128x128) hz3,
      View.ld_unit_zero (S := S1x128) hz2]
  · iexists _; isplitr
    swap; · iexact HS
    ipureintro
    refine (read_store_whole _ _ hz3 inb_S1x10000x128_S1x10000x128_0_0_0 _).trans ?_
    simp only [View.readAt_eq_ld, harg2.read_unread, harg3.read_unread,
      View.ld_unit_zero (S := S10000x128) hz2, View.ld_unit_zero (S := S1x128x128) hz3]

variable (m : (ℓ : Loc nD τ sig) → Buf (Elt F) ℓ) (ρ : Dev nD → PrngReg)

/-! ## The proof data

The scratch is written once, at the first point, with the product of the feature array and the weight array (both
windows are whole arrays with constant index maps, staged once), and every later point reads it back: so between
points the region invariant holds the scratch at that product. Window 0 (the adjacency bands) and window 4 (the
result bands) overhang their arrays at the last point; what the body obligation says of their buffers it says on the
rows inside the array only. -/

/-- The first grid point. -/
abbrev pt0 : Fin cfg0.N := ⟨0, lt_of_lt_of_eq (by decide : 0 < 40) N_0.symm⟩

/-- The kernel's scratch as a memref. -/
abbrev scM : Memref sig .tc .vmem S1x10000x128 .bf16 := Memref.whole cc0_scratch0

/-- What the first point leaves in the scratch: the body's product of the feature block and the weight block. -/
def hid (c : Dev nD) : Vec F S1x10000x128 .bf16 := k0_pay1 (iblk m c 1 pt0) (iblk m c 2 pt0)

/-- The adjacency band of point `t` as a full staging block, the rows past the array's end (at the last point) at the
    zero word: a representative of what the buffer holds, equal to it on the rows the fetch fills. -/
def adjBand (c : Dev nD) (t : Fin cfg0.N) : Vec F S1x256x10000 .f32 :=
  win0_0.fill (grid0.coords t) (fun _ => Scalar.ofBits .f32 0#32) (iblk m c 0 t)

/-- What the body computes from that band, the scratch and the bias row: the band's normalized output rows. -/
def outBand (c : Dev nD) (t : Fin cfg0.N) : Vec F S256x128 .f32 := k0_pay2 (adjBand m c t) (hid m c) (iblk m c 3 t)

/-- The region invariant before position `n`: before the first point the scratch holds anything; afterwards the
    hidden features. The generator register is at some state throughout. -/
def PhiS (c : Dev nD) : ℕ → sProp 𝕄
  | 0 => Pipeline.ΦA spec0 c
  | _ + 1 => iprop(owns (c : Thread nD τ) scM fullShare (hid m c) ∗ (∃ r, prngReg c r))

theorem PhiS_pos (c : Dev nD) (n : ℕ) (hn : n ≠ 0) :
    PhiS m c n = iprop(owns (c : Thread nD τ) scM fullShare (hid m c) ∗ (∃ r, prngReg c r)) := by
  cases n with
  | zero => exact absurd rfl hn
  | succ n => rfl

/-- The class invariant with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => adjBand m c t
    | ⟨1, _⟩ => iblk m c 1 t
    | ⟨2, _⟩ => iblk m c 2 t
    | ⟨3, _⟩ => iblk m c 3 t
    | ⟨4, _⟩ => outBand m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = adjBand m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBand m c t := by dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) :
    (dats m 0 c).Φ t.succ = iprop(owns (c : Thread nD τ) scM fullShare (hid m c) ∗ (∃ r, prngReg c r)) := rfl

/-! ### What the body finds in each staging buffer -/

/-- The adjacency band is fetched at every point: its buffer holds the band on the rows inside the array and whatever
    the fetch's overwrite left (`d`) past them. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl

/-- The features, the weights and the bias row are staged once and left in place. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The result window is never fetched, -/
theorem noFetch_4 : ∀ t : Fin cfg0.N, (cfg0.win 4).fetch t = false :=
  (by decide +kernel : ∀ t : Fin grid0.N, win0_4.fetch t = false)

/-- and written back at every point: its buffer holds nothing the proof names when the body starts. -/
theorem before_4 (c : Dev nD) (t : Fin cfg0.N) (d) : (dats m 0 c).before 4 t d = d := by
  unfold Dat.before
  rw [if_neg (by rw [noFetch_4 t]; exact Bool.false_ne_true)]
  by_cases h0 : t.val = 0
  · rw [if_pos h0]
  · rw [if_neg h0]; exact if_pos (flush0_4 _)

/-! ## The body at a generic point -/

/-- The body at point `t`, handed the adjacency band filled out with any `d0`, the three resident blocks, any contents
    `d4` of the result buffer and the invariant before `t`: it hands back the invariant after `t`, the input buffers as
    they were, and the result buffer at the normalized rows computed from the band AS HANDED (tail included). -/
theorem sound_point (c : Dev nD) (t : Fin cfg0.N) (d0 : Vec F S1x256x10000 .f32) (d4 : Vec F S256x128 .f32) (K : PUnit → sProp 𝕄) :
    iprop((dats m 0 c).Φ t.castSucc
        ∗ owns (c : Thread nD τ) (st0_0 t) fullShare (win0_0.fill (grid0.coords t) d0 (iblk m c 0 t))
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare d4
        ∗ (iprop((dats m 0 c).Φ t.succ
            ∗ owns (c : Thread nD τ) (st0_0 t) fullShare (win0_0.fill (grid0.coords t) d0 (iblk m c 0 t))
            ∗ owns (c : Thread nD τ) (st0_1 t) fullShare (iblk m c 1 t)
            ∗ owns (c : Thread nD τ) (st0_2 t) fullShare (iblk m c 2 t)
            ∗ owns (c : Thread nD τ) (st0_3 t) fullShare (iblk m c 3 t)
            ∗ owns (c : Thread nD τ) (st0_4 t) fullShare
                (k0_pay2 (win0_0.fill (grid0.coords t) d0 (iblk m c 0 t)) (hid m c) (iblk m c 3 t))) -∗ K ⟨⟩))
      ⊢ wp frame (wpE (defs₀ (F := F)) Variants.none c none) Set.univ (bodyAt0 t) K := by
  unfold bodyAt0
  rw [Phi_castSucc, Phi_succ]
  by_cases hz : t.val = 0
  · obtain rfl : t = pt0 := Fin.ext hz
    rw [show PhiS m c (pt0 : Fin cfg0.N).val = Pipeline.ΦA spec0 c from rfl, PhiA_eq]
    iintro ⟨⟨HS, Hg⟩, H0, H1, H2, H3, H4, Hk⟩
    iapply (run_first c (grid0.coords pt0) _ _ _ _ _ _ _ _ _ _ _ _ ((firstPt_iff pt0).mpr rfl)
      (win0_0.fill (grid0.coords pt0) d0 (iblk m c 0 pt0)) (iblk m c 1 pt0) (iblk m c 2 pt0) (iblk m c 3 pt0) Set.univ K)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    iexact H4
  · rw [PhiS_pos m c _ hz]
    iintro ⟨⟨HS, Hg⟩, H0, H1, H2, H3, H4, Hk⟩
    iapply (run_later c (grid0.coords t) _ _ _ _ _ _ _ _ _ _ _ _ (fun h => hz ((firstPt_iff t).mp h))
      (win0_0.fill (grid0.coords t) d0 (iblk m c 0 t)) (iblk m c 3 t) (hid m c) Set.univ K)
    isplitl [H0]; · iexact H0
    isplitl [H3]; · iexact H3
    isplitl [H4]; · iexists _; iexact H4
    isplitl [HS]; · iexact HS
    iintro ⟨H0, H3, H4, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    iexact H4

/-! ## The body obligation -/

/-- The result window alone. -/
abbrev onlyOut : Fin cfg0.W → Bool := fun | 0 => false | 1 => false | 2 => false | 3 => false | 4 => true | ⟨_ + 5, h⟩ => absurd h (Nat.not_lt.2 (Nat.le_add_left _ _))

/-- The obligation in full, given that the result rows INSIDE the array do not depend on what the adjacency buffer
    holds past the array's end (`hrows`: a fact of the arithmetic, true where a row of a matrix product is a function
    of the same row of its left factor). -/
theorem body_obligation (c : Dev nD)
    (hrows : ∀ (t : Fin cfg0.N) (d0 : Vec F S1x256x10000 .f32),
      win0_4.cut (grid0.coords t) (k0_pay2 (win0_0.fill (grid0.coords t) d0 (iblk m c 0 t)) (hid m c) (iblk m c 3 t))
        = win0_4.cut (grid0.coords t) (outBand m c t)) :
    BodyObligationLoose (dats (F := F) m 0 c) (defs₀ (F := F)) Variants.none () Set.univ := fun t => by
  rw [bigSep_W0, bigSep_W0]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  rw [after_0, after_1, after_2, after_3, after_4]
  iapply (sound_point m c t d0 d4 _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]
  · iexists d0
    rw [show (win0 0).cut (grid0.coords t) (adjBand m c t) = iblk m c 0 t from win0_0.cut_fill _ _ _]
    iexact H0
  isplitl [H1]; · iexact H1
  isplitl [H2]; · iexact H2
  isplitl [H3]; · iexact H3
  iexists (k0_pay2 (win0_0.fill (grid0.coords t) d0 (iblk m c 0 t)) (hid m c) (iblk m c 3 t))
  rw [show (win0 4).cut (grid0.coords t) (outBand m c t)
      = win0_4.cut (grid0.coords t) (k0_pay2 (win0_0.fill (grid0.coords t) d0 (iblk m c 0 t)) (hid m c) (iblk m c 3 t)) from (hrows t d0).symm,
    win0_4.fill_cut]
  iexact H4

/-- The obligation with the result window forgotten: nothing is said of what the body leaves there. -/
theorem body_obligation_forget (c : Dev nD) :
    BodyObligationLoose (dats (F := F) m 0 c) (defs₀ (F := F)) Variants.none () Set.univ onlyOut := fun t => by
  rw [bigSep_W0, bigSep_W0]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  rw [after_0, after_1, after_2, after_3]
  iapply (sound_point m c t d0 d4 _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]
  · iexists d0
    rw [show (win0 0).cut (grid0.coords t) (adjBand m c t) = iblk m c 0 t from win0_0.cut_fill _ _ _]
    iexact H0
  isplitl [H1]; · iexact H1
  isplitl [H2]; · iexact H2
  isplitl [H3]; · iexact H3
  iexists _; iexact H4

/-! ## The launch -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 40 from N_0]; decide), PhiA_eq]
  iintro ⟨HS, Hg⟩
  isplitl [HS]
  · iexists _; iexact HS
  iexact Hg

set_option backward.isDefEq.respectTransparency.types false in
/-- The run with the result array named: every weakly fair execution terminates, every array of the pipeline ends at
    what the write-backs of the proof data leave, every other unscoped buffer as the region found it. -/
theorem run_main
    (hrows : ∀ (c : Dev nD) (t : Fin cfg0.N) (d0 : Vec F S1x256x10000 .f32),
      win0_4.cut (grid0.coords t) (k0_pay2 (win0_0.fill (grid0.coords t) d0 (iblk m c 0 t)) (hid m c) (iblk m c 3 t))
        = win0_4.cut (grid0.coords t) (outBand m c t)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c (hrows c)) (hshare := fun c => (dats m 0 c).share_full fun _ => rfl)
    (howed := fun _ _ => rfl) (V := V m) (hmain := hmain m Variants.none) (hA := A_eq m) (hin := hin m) (hout := hout m)

set_option backward.isDefEq.respectTransparency.types false in
/-- The run with the result array forgotten. -/
theorem run_forget :
    θ_run defs (onTc (τ := τ) (main (F := F))) (s₀ m ρ)
      (Pipeline.RDat.FramePost (cfgs 0) (fun c => (dats m 0 c).toRForget onlyOut) (V m)) :=
  Pipeline.RDat.θ_run_frame_track cfgs (0 : Fin 1) launch0 defs₀ Variants.none (fun c => (dats m 0 c).toRForget onlyOut) m ρ main
    (hbody := fun c => (body_obligation_forget m c).toRForget) (hshare := fun c => (dats m 0 c).share_full fun _ => rfl)
    (howed := fun _ _ => rfl) (V := V m) (hmain := hmain m Variants.none) (hA := A_eq m) (hin := hin m) (hout := hout m)

/-- The frame from the forgetting run: the three staged argument arrays are input windows' arrays, which no write-back
    touches, and the bias array bypasses the region. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 1 rfl).trans ((A_eq m c 1).trans (V_main_arg0 m c)),
     (Pipeline.RDat.FramePost.arr_in h c 0 rfl).trans ((A_eq m c 0).trans (V_main_arg1 m c)),
     (Pipeline.RDat.FramePost.arr_in h c 2 rfl).trans ((A_eq m c 2).trans (V_main_arg2 m c)),
     ((h c).2 main_arg3 (Pipeline.mem_restRefs_of main_arg3 (by decide) (by decide))).trans (V_main_arg3 m c)⟩)
    (run_forget m ρ)

end Cert.Kernel.Body

end
-- ==== Proof.KernelIdealBody.lean ====
/-
  The frame of the fused graph-convolution kernel, for either reading of its floats.

  One pallas_call walks forty row bands of the adjacency. At the first grid point the body multiplies the feature
  array by the weight array and keeps the product in a scratch buffer; at every point it multiplies the band's 256 rows
  by that product, adds the bias row and divides each row by the larger of its Euclidean norm and a constant, and stores
  the 256 result rows. The last band has only sixteen rows inside the arrays: its fetch leaves the other rows of the
  staging buffer at words nothing names, and its write-back moves only the sixteen rows.

  What is proved here, for any float instance: the body at a generic point (two runs: the first point, which writes
  the scratch, and the later ones, which read it), the proof data (the scratch carried in the region invariant, the
  adjacency and result windows described on the rows inside the arrays only), the body obligation in two forms — in
  full, given that result rows inside the array do not depend on adjacency rows outside it, and with the result window
  forgotten — and the two runs they give: one that names the result array, one that only keeps the arguments.
-/
import proofs.«144337_g32040456028641_cont_8to1_b_1227_8_alg».proof.Proof.Gen.KernelIdeal.Launch
import proofs.«144337_g32040456028641_cont_8to1_b_1227_8_alg».proof.Proof.Gen.KernelIdeal.Skeleton
import proofs.«144337_g32040456028641_cont_8to1_b_1227_8_alg».proof.Proof.Gen.KernelIdeal.Points
import proofs.«144337_g32040456028641_cont_8to1_b_1227_8_alg».proof.Proof.Gen.KernelIdeal.Frame
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's one branch

The body recomputes the hidden features `x · W` into its scratch at the first grid point only; every
point then multiplies its band of the adjacency by the scratch, adds the bias and normalizes each row. -/

/-- The branch condition as the body computes it from the grid coordinate. -/
abbrev firstPt (i : grid0.Coords) : Prop :=
  (Scalar.cmpi .ne (Scalar.extui (Scalar.cmpi .eq (BitVec.ofNat 32 (i 0).val) 0#32)) 0#32) = 1#1

/-- It holds at point 0 and nowhere else: decided over the forty points. -/
theorem firstPt_iff : ∀ t : Fin cfg0.N, firstPt (grid0.coords t) ↔ t.val = 0 :=
  (by decide +kernel : ∀ t : Fin grid0.N, firstPt (grid0.coords t) ↔ t.val = 0)

theorem hz2 : (![0, 0] : Fin 2 → Nat) = fun _ => 0 := funext fun a => by fin_cases a <;> rfl
theorem hz3 : (![0, 0, 0] : Fin 3 → Nat) = fun _ => 0 := funext fun a => by fin_cases a <;> rfl

/-- One unmasked store through the whole-shape rectangle leaves its payload, whatever the buffer held. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- At a later point the body reads the adjacency band `x0`, the scratch `xs` and the bias row `x3`, and leaves
    in the output buffer the normalized rows `k0_pay2 x0 xs x3`; everything else is as it was. -/
theorem run_later (c : Dev nD) (i : grid0.Coords)
    (arg1 : Memref sig .tc .vmem S1x256x10000 .f32) (harg1 : arg1.IsWhole) (arg2 : Memref sig .tc .vmem S10000x128 .f32) (harg2 : arg2.IsWhole)
    (arg3 : Memref sig .tc .vmem S1x128x128 .f32) (harg3 : arg3.IsWhole) (arg4 : Memref sig .tc .vmem S1x128 .f32) (harg4 : arg4.IsWhole)
    (arg5 : Memref sig .tc .vmem S256x128 .f32) (harg5 : arg5.IsWhole) (arg6 : Memref sig .tc .vmem S1x10000x128 .bf16) (harg6 : arg6.IsWhole)
    (hc : ¬ firstPt i)
    (x0 : Vec F S1x256x10000 .f32) (x3 : Vec F S1x128 .f32) (xs : Vec F S1x10000x128 .bf16) (E : Set ℕ) (K : PUnit → sProp 𝕄) :
    iprop(owns (c : Thread nD τ) arg1 fullShare x0 ∗ owns (c : Thread nD τ) arg4 fullShare x3
          ∗ (∃ d, owns (c : Thread nD τ) arg5 fullShare d) ∗ owns (c : Thread nD τ) arg6 fullShare xs
          ∗ (iprop(owns (c : Thread nD τ) arg1 fullShare x0 ∗ owns (c : Thread nD τ) arg4 fullShare x3
              ∗ owns (c : Thread nD τ) arg5 fullShare (k0_pay2 x0 xs x3) ∗ owns (c : Thread nD τ) arg6 fullShare xs) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f0, %hf0, H0⟩, ⟨%f3, %hf3, H3⟩, ⟨%d4, %f4, -, H4⟩, ⟨%fs, %hfs, HS⟩, Hk⟩
  obtain rfl := harg1.eq_unread hf0; obtain rfl := harg4.eq_unread hf3; obtain rfl := harg6.eq_unread hfs
  sl_exec (disch := first | exact hc)
  sl_step
  iapply Hk
  isplitl [H0]
  · iexists _; isplitr; · ipureintro; exact hf0
    iexact H0
  isplitl [H3]
  · iexists _; isplitr; · ipureintro; exact hf3
    iexact H3
  isplitl [H4]
  · iexists _; isplitr
    swap; · iexact H4
    ipureintro
    refine (read_store_whole _ _ hz2 inb_S256x128_S256x128_0_0 _).trans ?_
    simp only [View.readAt_eq_ld, harg1.read_unread, harg4.read_unread, harg6.read_unread,
      View.ld_unit_zero (S := S1x256x10000) hz3, View.ld_unit_zero (S := S1x10000x128) hz3, View.ld_unit_zero (S := S1x128) hz2]
  · iexists _; isplitr; · ipureintro; exact hfs
    iexact HS

/-- At the first point the body first stores `k0_pay1 x1 x2` (the product of the feature block `x1` and the
    weight block `x2`) over whatever the scratch held, then goes on as at a later point with the scratch at that. -/
theorem run_first (c : Dev nD) (i : grid0.Coords)
    (arg1 : Memref sig .tc .vmem S1x256x10000 .f32) (harg1 : arg1.IsWhole) (arg2 : Memref sig .tc .vmem S10000x128 .f32) (harg2 : arg2.IsWhole)
    (arg3 : Memref sig .tc .vmem S1x128x128 .f32) (harg3 : arg3.IsWhole) (arg4 : Memref sig .tc .vmem S1x128 .f32) (harg4 : arg4.IsWhole)
    (arg5 : Memref sig .tc .vmem S256x128 .f32) (harg5 : arg5.IsWhole) (arg6 : Memref sig .tc .vmem S1x10000x128 .bf16) (harg6 : arg6.IsWhole)
    (hc : firstPt i)
    (x0 : Vec F S1x256x10000 .f32) (x1 : Vec F S10000x128 .f32) (x2 : Vec F S1x128x128 .f32) (x3 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare x3
          ∗ (∃ d, owns (c : Thread nD τ) arg5 fullShare d) ∗ (∃ d, owns (c : Thread nD τ) arg6 fullShare d)
          ∗ (iprop(owns (c : Thread nD τ) arg1 fullShare x0 ∗ owns (c : Thread nD τ) arg2 fullShare x1 ∗ owns (c : Thread nD τ) arg3 fullShare x2
              ∗ owns (c : Thread nD τ) arg4 fullShare x3
              ∗ owns (c : Thread nD τ) arg5 fullShare (k0_pay2 x0 (k0_pay1 x1 x2) x3) ∗ owns (c : Thread nD τ) arg6 fullShare (k0_pay1 x1 x2)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg1.eq_unread hf0; obtain rfl := harg2.eq_unread hf1; obtain rfl := harg3.eq_unread hf2; obtain rfl := harg4.eq_unread hf3
  sl_exec (disch := first | exact hc)
  sl_step
  iapply Hk
  sl_unfold_words
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_store_whole _ _ hz2 inb_S256x128_S256x128_0_0 _).trans ?_
    simp only [View.readAt_eq_ld, harg1.read_unread, harg2.read_unread, harg3.read_unread, harg4.read_unread,
      View.readCov_unit_zero (S := S1x10000x128) _ hz3,
      View.ld_unit_zero (S := S1x256x10000) hz3, View.ld_unit_zero (S := S10000x128) hz2, View.ld_unit_zero (S := S1x128x128) hz3,
      View.ld_unit_zero (S := S1x128) hz2]
  · iexists _; isplitr
    swap; · iexact HS
    ipureintro
    refine (read_store_whole _ _ hz3 inb_S1x10000x128_S1x10000x128_0_0_0 _).trans ?_
    simp only [View.readAt_eq_ld, harg2.read_unread, harg3.read_unread,
      View.ld_unit_zero (S := S10000x128) hz2, View.ld_unit_zero (S := S1x128x128) hz3]

variable (m : (ℓ : Loc nD τ sig) → Buf (Elt F) ℓ) (ρ : Dev nD → PrngReg)

/-! ## The proof data

The scratch is written once, at the first point, with the product of the feature array and the weight array (both
windows are whole arrays with constant index maps, staged once), and every later point reads it back: so between
points the region invariant holds the scratch at that product. Window 0 (the adjacency bands) and window 4 (the
result bands) overhang their arrays at the last point; what the body obligation says of their buffers it says on the
rows inside the array only. -/

/-- The first grid point. -/
abbrev pt0 : Fin cfg0.N := ⟨0, lt_of_lt_of_eq (by decide : 0 < 40) N_0.symm⟩

/-- The kernel's scratch as a memref. -/
abbrev scM : Memref sig .tc .vmem S1x10000x128 .bf16 := Memref.whole cc0_scratch0

/-- What the first point leaves in the scratch: the body's product of the feature block and the weight block. -/
def hid (c : Dev nD) : Vec F S1x10000x128 .bf16 := k0_pay1 (iblk m c 1 pt0) (iblk m c 2 pt0)

/-- The adjacency band of point `t` as a full staging block, the rows past the array's end (at the last point) at the
    zero word: a representative of what the buffer holds, equal to it on the rows the fetch fills. -/
def adjBand (c : Dev nD) (t : Fin cfg0.N) : Vec F S1x256x10000 .f32 :=
  win0_0.fill (grid0.coords t) (fun _ => Scalar.ofBits .f32 0#32) (iblk m c 0 t)

/-- What the body computes from that band, the scratch and the bias row: the band's normalized output rows. -/
def outBand (c : Dev nD) (t : Fin cfg0.N) : Vec F S256x128 .f32 := k0_pay2 (adjBand m c t) (hid m c) (iblk m c 3 t)

/-- The region invariant before position `n`: before the first point the scratch holds anything; afterwards the
    hidden features. The generator register is at some state throughout. -/
def PhiS (c : Dev nD) : ℕ → sProp 𝕄
  | 0 => Pipeline.ΦA spec0 c
  | _ + 1 => iprop(owns (c : Thread nD τ) scM fullShare (hid m c) ∗ (∃ r, prngReg c r))

theorem PhiS_pos (c : Dev nD) (n : ℕ) (hn : n ≠ 0) :
    PhiS m c n = iprop(owns (c : Thread nD τ) scM fullShare (hid m c) ∗ (∃ r, prngReg c r)) := by
  cases n with
  | zero => exact absurd rfl hn
  | succ n => rfl

/-- The class invariant with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => adjBand m c t
    | ⟨1, _⟩ => iblk m c 1 t
    | ⟨2, _⟩ => iblk m c 2 t
    | ⟨3, _⟩ => iblk m c 3 t
    | ⟨4, _⟩ => outBand m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = adjBand m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outBand m c t := by dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) :
    (dats m 0 c).Φ t.succ = iprop(owns (c : Thread nD τ) scM fullShare (hid m c) ∗ (∃ r, prngReg c r)) := rfl

/-! ### What the body finds in each staging buffer -/

/-- The adjacency band is fetched at every point: its buffer holds the band on the rows inside the array and whatever
    the fetch's overwrite left (`d`) past them. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]; try rfl

/-- The features, the weights and the bias row are staged once and left in place. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The result window is never fetched, -/
theorem noFetch_4 : ∀ t : Fin cfg0.N, (cfg0.win 4).fetch t = false :=
  (by decide +kernel : ∀ t : Fin grid0.N, win0_4.fetch t = false)

/-- and written back at every point: its buffer holds nothing the proof names when the body starts. -/
theorem before_4 (c : Dev nD) (t : Fin cfg0.N) (d) : (dats m 0 c).before 4 t d = d := by
  unfold Dat.before
  rw [if_neg (by rw [noFetch_4 t]; exact Bool.false_ne_true)]
  by_cases h0 : t.val = 0
  · rw [if_pos h0]
  · rw [if_neg h0]; exact if_pos (flush0_4 _)

/-! ## The body at a generic point -/

/-- The body at point `t`, handed the adjacency band filled out with any `d0`, the three resident blocks, any contents
    `d4` of the result buffer and the invariant before `t`: it hands back the invariant after `t`, the input buffers as
    they were, and the result buffer at the normalized rows computed from the band AS HANDED (tail included). -/
theorem sound_point (c : Dev nD) (t : Fin cfg0.N) (d0 : Vec F S1x256x10000 .f32) (d4 : Vec F S256x128 .f32) (K : PUnit → sProp 𝕄) :
    iprop((dats m 0 c).Φ t.castSucc
        ∗ owns (c : Thread nD τ) (st0_0 t) fullShare (win0_0.fill (grid0.coords t) d0 (iblk m c 0 t))
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare d4
        ∗ (iprop((dats m 0 c).Φ t.succ
            ∗ owns (c : Thread nD τ) (st0_0 t) fullShare (win0_0.fill (grid0.coords t) d0 (iblk m c 0 t))
            ∗ owns (c : Thread nD τ) (st0_1 t) fullShare (iblk m c 1 t)
            ∗ owns (c : Thread nD τ) (st0_2 t) fullShare (iblk m c 2 t)
            ∗ owns (c : Thread nD τ) (st0_3 t) fullShare (iblk m c 3 t)
            ∗ owns (c : Thread nD τ) (st0_4 t) fullShare
                (k0_pay2 (win0_0.fill (grid0.coords t) d0 (iblk m c 0 t)) (hid m c) (iblk m c 3 t))) -∗ K ⟨⟩))
      ⊢ wp frame (wpE (defs₀ (F := F)) Variants.none c none) Set.univ (bodyAt0 t) K := by
  unfold bodyAt0
  rw [Phi_castSucc, Phi_succ]
  by_cases hz : t.val = 0
  · obtain rfl : t = pt0 := Fin.ext hz
    rw [show PhiS m c (pt0 : Fin cfg0.N).val = Pipeline.ΦA spec0 c from rfl, PhiA_eq]
    iintro ⟨⟨HS, Hg⟩, H0, H1, H2, H3, H4, Hk⟩
    iapply (run_first c (grid0.coords pt0) _ _ _ _ _ _ _ _ _ _ _ _ ((firstPt_iff pt0).mpr rfl)
      (win0_0.fill (grid0.coords pt0) d0 (iblk m c 0 pt0)) (iblk m c 1 pt0) (iblk m c 2 pt0) (iblk m c 3 pt0) Set.univ K)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    iexact H4
  · rw [PhiS_pos m c _ hz]
    iintro ⟨⟨HS, Hg⟩, H0, H1, H2, H3, H4, Hk⟩
    iapply (run_later c (grid0.coords t) _ _ _ _ _ _ _ _ _ _ _ _ (fun h => hz ((firstPt_iff t).mp h))
      (win0_0.fill (grid0.coords t) d0 (iblk m c 0 t)) (iblk m c 3 t) (hid m c) Set.univ K)
    isplitl [H0]; · iexact H0
    isplitl [H3]; · iexact H3
    isplitl [H4]; · iexists _; iexact H4
    isplitl [HS]; · iexact HS
    iintro ⟨H0, H3, H4, HS⟩
    iapply Hk
    isplitl [HS Hg]
    · isplitl [HS]
      · iexact HS
      · iexact Hg
    isplitl [H0]; · iexact H0
    isplitl [H1]; · iexact H1
    isplitl [H2]; · iexact H2
    isplitl [H3]; · iexact H3
    iexact H4

/-! ## The body obligation -/

/-- The result window alone. -/
abbrev onlyOut : Fin cfg0.W → Bool := fun | 0 => false | 1 => false | 2 => false | 3 => false | 4 => true | ⟨_ + 5, h⟩ => absurd h (Nat.not_lt.2 (Nat.le_add_left _ _))

/-- The obligation in full, given that the result rows INSIDE the array do not depend on what the adjacency buffer
    holds past the array's end (`hrows`: a fact of the arithmetic, true where a row of a matrix product is a function
    of the same row of its left factor). -/
theorem body_obligation (c : Dev nD)
    (hrows : ∀ (t : Fin cfg0.N) (d0 : Vec F S1x256x10000 .f32),
      win0_4.cut (grid0.coords t) (k0_pay2 (win0_0.fill (grid0.coords t) d0 (iblk m c 0 t)) (hid m c) (iblk m c 3 t))
        = win0_4.cut (grid0.coords t) (outBand m c t)) :
    BodyObligationLoose (dats (F := F) m 0 c) (defs₀ (F := F)) Variants.none () Set.univ := fun t => by
  rw [bigSep_W0, bigSep_W0]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3, before_4 m c t d4]
  rw [after_0, after_1, after_2, after_3, after_4]
  iapply (sound_point m c t d0 d4 _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]
  · iexists d0
    rw [show (win0 0).cut (grid0.coords t) (adjBand m c t) = iblk m c 0 t from win0_0.cut_fill _ _ _]
    iexact H0
  isplitl [H1]; · iexact H1
  isplitl [H2]; · iexact H2
  isplitl [H3]; · iexact H3
  iexists (k0_pay2 (win0_0.fill (grid0.coords t) d0 (iblk m c 0 t)) (hid m c) (iblk m c 3 t))
  rw [show (win0 4).cut (grid0.coords t) (outBand m c t)
      = win0_4.cut (grid0.coords t) (k0_pay2 (win0_0.fill (grid0.coords t) d0 (iblk m c 0 t)) (hid m c) (iblk m c 3 t)) from (hrows t d0).symm,
    win0_4.fill_cut]
  iexact H4

/-- The obligation with the result window forgotten: nothing is said of what the body leaves there. -/
theorem body_obligation_forget (c : Dev nD) :
    BodyObligationLoose (dats (F := F) m 0 c) (defs₀ (F := F)) Variants.none () Set.univ onlyOut := fun t => by
  rw [bigSep_W0, bigSep_W0]
  simp only
  rw [show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  rw [after_0, after_1, after_2, after_3]
  iapply (sound_point m c t d0 d4 _)
  isplitl [HΦ]; · iexact HΦ
  isplitl [H0]; · iexact H0
  isplitl [H1]; · iexact H1
  isplitl [H2]; · iexact H2
  isplitl [H3]; · iexact H3
  isplitl [H4]; · iexact H4
  iintro ⟨HΦ, H0, H1, H2, H3, H4⟩
  isplitl [HΦ]; · iexact HΦ
  isplitl [Ho]; · iexact Ho
  isplitl [H0]
  · iexists d0
    rw [show (win0 0).cut (grid0.coords t) (adjBand m c t) = iblk m c 0 t from win0_0.cut_fill _ _ _]
    iexact H0
  isplitl [H1]; · iexact H1
  isplitl [H2]; · iexact H2
  isplitl [H3]; · iexact H3
  iexists _; iexact H4

/-! ## The launch -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 40 from N_0]; decide), PhiA_eq]
  iintro ⟨HS, Hg⟩
  isplitl [HS]
  · iexists _; iexact HS
  iexact Hg

set_option backward.isDefEq.respectTransparency.types false in
/-- The run with the result array named: every weakly fair execution terminates, every array of the pipeline ends at
    what the write-backs of the proof data leave, every other unscoped buffer as the region found it. -/
theorem run_main
    (hrows : ∀ (c : Dev nD) (t : Fin cfg0.N) (d0 : Vec F S1x256x10000 .f32),
      win0_4.cut (grid0.coords t) (k0_pay2 (win0_0.fill (grid0.coords t) d0 (iblk m c 0 t)) (hid m c) (iblk m c 3 t))
        = win0_4.cut (grid0.coords t) (outBand m c t)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c (hrows c)) (hshare := fun c => (dats m 0 c).share_full fun _ => rfl)
    (howed := fun _ _ => rfl) (V := V m) (hmain := hmain m Variants.none) (hA := A_eq m) (hin := hin m) (hout := hout m)

set_option backward.isDefEq.respectTransparency.types false in
/-- The run with the result array forgotten. -/
theorem run_forget :
    θ_run defs (onTc (τ := τ) (main (F := F))) (s₀ m ρ)
      (Pipeline.RDat.FramePost (cfgs 0) (fun c => (dats m 0 c).toRForget onlyOut) (V m)) :=
  Pipeline.RDat.θ_run_frame_track cfgs (0 : Fin 1) launch0 defs₀ Variants.none (fun c => (dats m 0 c).toRForget onlyOut) m ρ main
    (hbody := fun c => (body_obligation_forget m c).toRForget) (hshare := fun c => (dats m 0 c).share_full fun _ => rfl)
    (howed := fun _ _ => rfl) (V := V m) (hmain := hmain m Variants.none) (hA := A_eq m) (hin := hin m) (hout := hout m)

/-- The frame from the forgetting run: the three staged argument arrays are input windows' arrays, which no write-back
    touches, and the bias array bypasses the region. -/
theorem frame_forget :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePost.arr_in h c 1 rfl).trans ((A_eq m c 1).trans (V_main_arg0 m c)),
     (Pipeline.RDat.FramePost.arr_in h c 0 rfl).trans ((A_eq m c 0).trans (V_main_arg1 m c)),
     (Pipeline.RDat.FramePost.arr_in h c 2 rfl).trans ((A_eq m c 2).trans (V_main_arg2 m c)),
     ((h c).2 main_arg3 (Pipeline.mem_restRefs_of main_arg3 (by decide) (by decide))).trans (V_main_arg3 m c)⟩)
    (run_forget m ρ)

end Cert.KernelIdeal.Body

end
-- ==== Proof.Spec.lean ====
/-
  The layer as one function of its four arguments, on the extended reals.

  For features `x` (10000 × 128), one adjacency support `a` (1 × 10000 × 10000), one weight matrix `w` (1 × 128 × 128)
  and a bias `b` (128): the hiddenAt features are `x · w`, row `r` of the layer before normalization is row `r` of `a` times
  the hiddenAt features plus the bias, and the result divides each row by the larger of its Euclidean norm and the
  constant the programs share. A row of the result depends on one row of the adjacency only, which is what lets a
  band of rows be computed from a band of the adjacency, and what makes rows past the array's end irrelevant.
-/
import Idealize.ShloMosaic.PureOps.Ideal.Laws
import Idealize.ShloMosaic.Lib.ValueIdx

noncomputable section

open scoped BigOperators

namespace Cert.GcnSpec

open Idealize.ShloMosaic Idealize.ShloMosaic.ValueIdx

/-- The hiddenAt features: entry `(k, q)` of the feature array times the one weight matrix. -/
def hiddenAt (x : (⟨2, ![10000, 128]⟩ : Shape).Idx → EReal) (w : (⟨3, ![1, 128, 128]⟩ : Shape).Idx → EReal)
    (k : Fin 10000) (q : Fin 128) : EReal :=
  ∑ j : Fin 128, x (ix2 k j) * w (ix3 (0 : Fin 1) j q)

/-- One row before normalization: an adjacency row `ar` against a hiddenAt matrix `h`, plus the bias. -/
def pre (ar : Fin 10000 → EReal) (h : Fin 10000 → Fin 128 → EReal) (b : Fin 128 → EReal) (q : Fin 128) : EReal :=
  (∑ k : Fin 10000, ar k * h k q) + b q

/-- The same row normalized: each entry over the larger of the row's Euclidean norm and the shared constant. -/
def normRow (ar : Fin 10000 → EReal) (h : Fin 10000 → Fin 128 → EReal) (b : Fin 128 → EReal) (q : Fin 128) : EReal :=
  Ideal.div (pre ar h b q)
    (max (Ideal.sqrt (∑ q' : Fin 128, pre ar h b q' * pre ar h b q')) (Ideal.ofBits .f32 0x2B8CBCCC#32))

/-- The whole layer, index by index. -/
def layer (x : (⟨2, ![10000, 128]⟩ : Shape).Idx → EReal) (a : (⟨3, ![1, 10000, 10000]⟩ : Shape).Idx → EReal)
    (w : (⟨3, ![1, 128, 128]⟩ : Shape).Idx → EReal) (b : (⟨1, ![128]⟩ : Shape).Idx → EReal) :
    (⟨2, ![10000, 128]⟩ : Shape).Idx → EReal := fun i =>
  normRow (fun k => a (ix3 (0 : Fin 1) (i 0) k)) (hiddenAt x w) (fun q => b (ix1 q)) (i 1)

/-- A normalized row is a function of the row's data: equal rows, hiddenAt matrices and biases give equal rows. -/
theorem normRow_congr {ar ar' : Fin 10000 → EReal} {h h' : Fin 10000 → Fin 128 → EReal} {b b' : Fin 128 → EReal}
    (ha : ∀ k, ar k = ar' k) (hh : ∀ k q, h k q = h' k q) (hb : ∀ q, b q = b' q) (q : Fin 128) :
    normRow ar h b q = normRow ar' h' b' q := by
  have e1 : ar = ar' := funext ha
  have e2 : h = h' := funext fun k => funext (hh k)
  have e3 : b = b' := funext hb
  rw [e1, e2, e3]

end Cert.GcnSpec

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.PayAt.lean ====
/-
  The body's two stored values read at an entry, on the extended reals.

  The value the first grid point stores into the scratch is, at `(0, k, q)`, entry `(k, q)` of the product of the
  feature block and the weight block (the narrowing to bf16 is the identity on the extended reals). The value every
  point stores into the result buffer is, at `(p, q)`, entry `q` of the normalized row computed from row `p` of the
  adjacency block, the scratch read as a 10000 × 128 matrix, and the bias row: row `p` of the result reads no other
  row of the adjacency block.
-/
import proofs.«144337_g32040456028641_cont_8to1_b_1227_8_alg».proof.Proof.Gen.KernelIdeal.Skeleton
import proofs.«144337_g32040456028641_cont_8to1_b_1227_8_alg».proof.Proof.Spec
import proofs.«144337_g32040456028641_cont_8to1_b_1227_8_alg».proof.Proof.LibPlainDot
import proofs.«144337_g32040456028641_cont_8to1_b_1227_8_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Cert.GcnSpec
open Idealize.ShloMosaic Idealize.ShloMosaic.ValueIdx

/-! ## The scratch's value -/

/-- The stored scratch value, with its steps written out. -/
theorem pay1_eq (x1 : FVec Ideal S10000x128 .f32) (x2 : FVec Ideal S1x128x128 .f32) :
    k0_pay1 (F := Ideal) x1 x2
      = shapeCast S1x10000x128
          (truncf .bf16 (matmul dot_S10000x128_S128x128_S10000x128_1_0_0_1_n_n none x1
            (shapeCast S128x128 x2 shapeCasts_S1x128x128_S128x128) (constant S10000x128 .f32 0x00000000#32)) bitsLt_bf16_f32)
          shapeCasts_S10000x128_S1x10000x128 := rfl

/-- At `(0, k, q)` it is entry `(k, q)` of features times weights. -/
theorem pay1_apply (x1 : FVec Ideal S10000x128 .f32) (x2 : FVec Ideal S1x128x128 .f32) (k : Fin 10000) (q : Fin 128) :
    k0_pay1 (F := Ideal) x1 x2 (ix3 (0 : Fin 1) k q) = hiddenAt x1 x2 k q := by
  rw [pay1_eq]
  refine (shapeCast_ab_1ab_apply _ shapeCasts_S10000x128_S1x10000x128 (0 : Fin 1) k q).trans ?_
  refine (truncf_apply _ bitsLt_bf16_f32 (ix2 k q)).trans ?_
  refine (Cert.PlainDot.matmul_zero_apply dot_S10000x128_S128x128_S10000x128_1_0_0_1_n_n rfl none x1 _ (ix2 k q)).trans ?_
  unfold hiddenAt
  refine Finset.sum_congr rfl fun j _ => ?_
  exact congrArg (x1 (ix2 k j) * ·) (shapeCast_1ab_ab_apply x2 shapeCasts_S1x128x128_S128x128 j q)

/-! ## The result's value -/

/-- The band before normalization: adjacency block times scratch, plus the bias row broadcast down the rows. -/
def preVec (x0 : FVec Ideal S1x256x10000 .f32) (xs : FVec Ideal S1x10000x128 .bf16) (x3 : FVec Ideal S1x128 .f32) : FVec Ideal S256x128 .f32 :=
  addf (matmul dot_S256x10000_S10000x128_S256x128_1_0_0_1_n_n none
      (truncf .bf16 (shapeCast S256x10000 x0 shapeCasts_S1x256x10000_S256x10000) bitsLt_bf16_f32)
      (shapeCast S10000x128 xs shapeCasts_S1x10000x128_S10000x128) (constant S256x128 .f32 0x00000000#32))
    (broadcastTo S256x128 (shapeCast S1x128 x3 shapeCasts_S1x128_S1x128) broadcasts_S1x128_S256x128)

/-- The stored result value over it: each entry over the column of row scales broadcast across the row. -/
theorem pay2_eq (x0 : FVec Ideal S1x256x10000 .f32) (xs : FVec Ideal S1x10000x128 .bf16) (x3 : FVec Ideal S1x128 .f32) :
    k0_pay2 (F := Ideal) x0 xs x3
      = divf (preVec x0 xs x3)
          (broadcastTo S256x128
            (maximumf
              (sqrt (shapeCast S256x1
                (multiReduction .add [1] S256 (mulf (preVec x0 xs x3) (preVec x0 xs x3)) 0x00000000#32 reduces_S256x128_S256 (.inl rfl) rfl)
                shapeCasts_S256_S256x1))
              (broadcast S256x1 (Scalar.ofBits .f32 0x2B8CBCCC#32)))
            broadcasts_S256x1_S256x128) := rfl

/-- Entry `(p, q)` of the band before normalization: row `p` of the adjacency block against the scratch, plus the bias. -/
theorem preVec_apply (x0 : FVec Ideal S1x256x10000 .f32) (xs : FVec Ideal S1x10000x128 .bf16) (x3 : FVec Ideal S1x128 .f32)
    (p : Fin 256) (q : Fin 128) :
    preVec x0 xs x3 (ix2 p q)
      = pre (fun k => x0 (ix3 (0 : Fin 1) p k)) (fun k q => xs (ix3 (0 : Fin 1) k q)) (fun q => x3 (ix2 (0 : Fin 1) q)) q := by
  unfold preVec pre
  refine (addf_apply _ _ (ix2 p q)).trans ?_
  refine congrArg₂ (· + ·) ?_ ?_
  · refine (Cert.PlainDot.matmul_zero_apply dot_S256x10000_S10000x128_S256x128_1_0_0_1_n_n rfl none _ _ (ix2 p q)).trans ?_
    refine Finset.sum_congr rfl fun k _ => ?_
    refine congrArg₂ (· * ·) ?_ ?_
    · refine (truncf_apply _ bitsLt_bf16_f32 (ix2 p k)).trans ?_
      exact shapeCast_1ab_ab_apply x0 shapeCasts_S1x256x10000_S256x10000 p k
    · exact shapeCast_1ab_ab_apply xs shapeCasts_S1x10000x128_S10000x128 k q
  · refine (broadcastTo_1b_ab_apply _ broadcasts_S1x128_S256x128 p q).trans ?_
    rw [shapeCast_self]

/-- The lane sum's inserted index at row `p`, lane `k`, by coordinates. -/
theorem lift_row (p : Fin 256) (k : Fin 128) :
    (reduces_S256x128_S256 : S256x128.Reduces [1] S256).lift (ix1 p) k = ix2 p k := by
  funext a
  match a with
  | ⟨0, _⟩ => rfl
  | ⟨1, _⟩ => rfl

/-- Entry `(p, q)` of the stored result: entry `q` of the normalized row of adjacency row `p`. -/
theorem pay2_apply (x0 : FVec Ideal S1x256x10000 .f32) (xs : FVec Ideal S1x10000x128 .bf16) (x3 : FVec Ideal S1x128 .f32)
    (p : Fin 256) (q : Fin 128) :
    k0_pay2 (F := Ideal) x0 xs x3 (ix2 p q)
      = normRow (fun k => x0 (ix3 (0 : Fin 1) p k)) (fun k q => xs (ix3 (0 : Fin 1) k q)) (fun q => x3 (ix2 (0 : Fin 1) q)) q := by
  rw [pay2_eq]
  unfold normRow
  refine (divf_apply _ _ (ix2 p q)).trans ?_
  refine congrArg₂ Ideal.div (preVec_apply x0 xs x3 p q) ?_
  refine (Cert.Keepdims.broadcastTo_a1_ab_apply _ broadcasts_S256x1_S256x128 p q).trans ?_
  refine (maximumf_apply _ _ (ix2 p (0 : Fin 1))).trans ?_
  refine congrArg₂ max ?_ rfl
  show Ideal.sqrt (shapeCast S256x1 _ shapeCasts_S256_S256x1 (ix2 p (0 : Fin 1))) = _
  refine congrArg Ideal.sqrt ?_
  refine (Cert.Keepdims.shapeCast_a_a1_apply _ shapeCasts_S256_S256x1 p (0 : Fin 1)).trans ?_
  refine (Ideal.multiReduction_add_single _ _ reduces_S256x128_S256 (.inl rfl) rfl (ix1 p)).trans ?_
  show (∑ k : Fin 128, mulf (preVec x0 xs x3) (preVec x0 xs x3) ((reduces_S256x128_S256 : S256x128.Reduces [1] S256).lift (ix1 p) k)) = _
  refine Finset.sum_congr rfl fun k _ => ?_
  rw [lift_row p k]
  refine (mulf_apply _ _ (ix2 p k)).trans ?_
  rw [preVec_apply x0 xs x3 p k]

end Cert.KernelIdeal.PayAt

end
-- ==== Proof.KernelValue.lean ====
/-
  What the idealized kernel leaves in its result array: the layer of its arguments.

  Point `t` of the grid writes back rows `256 t ‥` of the result, as many as lie inside the array (sixteen at the
  last point). Those rows are the normalized rows of the same rows of the adjacency, computed against the scratch,
  which holds the hidden features from the first point on; and a result row inside the array reads only the adjacency
  row of the same number, which the fetch did fill: so what the staging buffer holds past the array's end never
  reaches a row that is written back. The forty blocks' rows inside the array are all its rows.
-/
import proofs.«144337_g32040456028641_cont_8to1_b_1227_8_alg».proof.Proof.KernelIdealBody
import proofs.«144337_g32040456028641_cont_8to1_b_1227_8_alg».proof.Proof.PayAt
import Idealize.ShloMosaic.Lib.ValueLayout
import Idealize.ShloMosaic.Lib.StableHlo.Run

set_option maxRecDepth 16384

noncomputable section

open scoped BigOperators

namespace Cert.KernelIdeal.KValue

open Cert.KernelIdeal Cert.KernelIdeal.Gen Cert.KernelIdeal.Body Cert.KernelIdeal.PayAt Cert.GcnSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The printed index maps and cuts, decided over the forty points -/

/-- The adjacency band and the result band of point `t` are band `t`; both are cut alike on the row axis, and on no
    other; the rows kept end at the array's end or the band's, whichever is first. -/
theorem idx_facts : ∀ t : Fin cfg0.N,
    win0_0.index t (0 : Fin 3) = 0 ∧ win0_0.index t (1 : Fin 3) = t.val ∧ win0_0.index t (2 : Fin 3) = 0
    ∧ win0_4.index t (0 : Fin 2) = t.val ∧ win0_4.index t (1 : Fin 2) = 0
    ∧ win0_0.xsize (grid0.coords t) (0 : Fin 3) = 1
    ∧ win0_0.xsize (grid0.coords t) (1 : Fin 3) = win0_4.xsize (grid0.coords t) (0 : Fin 2)
    ∧ win0_0.xsize (grid0.coords t) (2 : Fin 3) = 10000
    ∧ win0_4.xsize (grid0.coords t) (1 : Fin 2) = 128
    ∧ t.val * 256 + win0_4.xsize (grid0.coords t) (0 : Fin 2) = min 10000 (t.val * 256 + 256) :=
  (by decide +kernel : ∀ t : Fin grid0.N, _)

/-- The three resident windows sit at block index zero. -/
theorem idx_resident : ∀ t : Fin cfg0.N,
    win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

/-! ## The blocks the body reads, as the arguments -/

/-- The feature block is the feature array. -/
theorem xblk_eq (c : Dev nD) (t : Fin cfg0.N) : (iblk m c 1 t : S10000x128.Idx → EReal) = V m c main_arg0 := by
  obtain ⟨e0, e1, -⟩ := idx_resident t
  funext y
  show V m c main_arg0 (((cfg0.win 1).blk t).view.emb y) = V m c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The weight block is the weight array. -/
theorem wblk_eq (c : Dev nD) (t : Fin cfg0.N) : (iblk m c 2 t : S1x128x128.Idx → EReal) = V m c main_arg2 := by
  obtain ⟨-, -, e0, e1, e2, -⟩ := idx_resident t
  funext y
  show V m c main_arg2 (((cfg0.win 2).blk t).view.emb y) = V m c main_arg2 y
  refine congrArg _ (funext fun a => Fin.ext ?_)
  match a with
  | ⟨0, _⟩ => show win0_2.index t (0 : Fin 3) * 1 + 1 * (y 0).val = (y 0).val; omega
  | ⟨1, _⟩ => show win0_2.index t (1 : Fin 3) * 128 + 1 * (y 1).val = (y 1).val; omega
  | ⟨2, _⟩ => show win0_2.index t (2 : Fin 3) * 128 + 1 * (y 2).val = (y 2).val; omega

/-- The bias row the region finds is the bias array recast as one row. -/
theorem bias_eq (c : Dev nD) :
    (V m c main_call0_v0 : S1x128.Idx → EReal) = shapeCast S1x128 (m ((c : Thread nD τ).loc main_arg3)) shapeCasts_S128_S1x128 := by
  dsimp only [Gen.V, Gen.hostOps0]; after_results; rfl

/-- The bias block at `(0, q)` is the bias at `q`. -/
theorem bblk_apply (c : Dev nD) (t : Fin cfg0.N) (q : Fin 128) :
    (iblk m c 3 t : S1x128.Idx → EReal) (ix2 (0 : Fin 1) q) = m ((c : Thread nD τ).loc main_arg3) (ix1 q) := by
  obtain ⟨-, -, -, -, -, e0, e1⟩ := idx_resident t
  show V m c main_call0_v0 (((cfg0.win 3).blk t).view.emb (ix2 (0 : Fin 1) q)) = _
  have e : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  rw [e, bias_eq]
  exact shapeCast_a_1a_apply _ shapeCasts_S128_S1x128 (0 : Fin 1) q

/-- The scratch from the first point on, at `(0, k, q)`: the hidden features of the feature and weight arrays. -/
theorem hid_apply (c : Dev nD) (k : Fin 10000) (q : Fin 128) :
    (hid m c : S1x10000x128.Idx → EReal) (ix3 (0 : Fin 1) k q) = hiddenAt (V m c main_arg0) (V m c main_arg2) k q := by
  unfold hid
  rw [xblk_eq m c pt0, wblk_eq m c pt0]
  exact pay1_apply _ _ k q

/-! ## A result row inside the array reads no adjacency row outside it -/

/-- Two fillings of the adjacency buffer by one band agree wherever the fetch landed. -/
theorem fill_agree (t : Fin cfg0.N) (d d' : S1x256x10000.Idx → EReal) (g : (win0_0.xblock (grid0.coords t)).Idx → EReal)
    {j : S1x256x10000.Idx} (h : win0_0.moved (grid0.coords t) j = true) :
    win0_0.fill (grid0.coords t) d g j = win0_0.fill (grid0.coords t) d' g j := by
  unfold Window.fill; rw [dif_pos h, dif_pos h]

/-- Row `p` of the adjacency buffer is filled by the fetch when result row `p` is written back. -/
theorem moved_row (t : Fin cfg0.N) (p : Fin 256) (k : Fin 10000) (hp : p.val < win0_4.xsize (grid0.coords t) (0 : Fin 2)) :
    win0_0.moved (grid0.coords t) (ix3 (0 : Fin 1) p k) = true := by
  obtain ⟨-, -, -, -, -, x0, x1, x2, -⟩ := idx_facts t
  rw [Window.moved_iff]
  intro a
  match a with
  | ⟨0, _⟩ => show 0 < win0_0.xsize (grid0.coords t) (0 : Fin 3); omega
  | ⟨1, _⟩ => show p.val < win0_0.xsize (grid0.coords t) (1 : Fin 3); omega
  | ⟨2, _⟩ => show k.val < win0_0.xsize (grid0.coords t) (2 : Fin 3); have := k.isLt; omega

/-- So the rows written back do not depend on what the buffer holds past the array's end. -/
theorem rows_inside (c : Dev nD) (t : Fin cfg0.N) (d0 : Vec Ideal S1x256x10000 .f32) :
    win0_4.cut (grid0.coords t) (k0_pay2 (F := Ideal) (win0_0.fill (grid0.coords t) d0 (iblk m c 0 t)) (hid m c) (iblk m c 3 t))
      = win0_4.cut (grid0.coords t) (outBand m c t) := by
  funext y
  obtain ⟨-, -, -, -, -, -, -, -, x3, -⟩ := idx_facts t
  have hp : (y 0).val < win0_4.xsize (grid0.coords t) (0 : Fin 2) := (y 0).isLt
  have hq : (y 1).val < 128 := lt_of_lt_of_eq (y 1).isLt x3
  have hp' : (y 0).val < 256 := lt_of_lt_of_le hp (win0_4.xsize_le (grid0.coords t) 0)
  have ey : win0_4.xinj (grid0.coords t) y = ix2 (⟨(y 0).val, hp'⟩ : Fin 256) (⟨(y 1).val, hq⟩ : Fin 128) := by
    funext a
    match a with
    | ⟨0, _⟩ => rfl
    | ⟨1, _⟩ => rfl
  show k0_pay2 (F := Ideal) _ _ _ (win0_4.xinj (grid0.coords t) y) = outBand m c t (win0_4.xinj (grid0.coords t) y)
  unfold outBand adjBand
  rw [ey, pay2_apply, pay2_apply]
  exact normRow_congr (fun k => fill_agree t _ _ _ (moved_row t _ k hp)) (fun _ _ => rfl) (fun _ => rfl) _

/-! ## What each point writes back -/

/-- The filled adjacency band at a row the fetch landed, by the array's coordinates. -/
theorem adjBand_apply (c : Dev nD) (t : Fin cfg0.N) (p : Fin 256) (k : Fin 10000)
    (hp : p.val < win0_4.xsize (grid0.coords t) (0 : Fin 2)) (r : Fin 10000) (hr : r.val = t.val * 256 + p.val) :
    adjBand m c t (ix3 (0 : Fin 1) p k) = V m c main_arg1 (ix3 (0 : Fin 1) r k) := by
  obtain ⟨i0, i1, i2, -⟩ := idx_facts t
  unfold adjBand Window.fill
  rw [dif_pos (moved_row t p k hp)]
  show V m c main_arg1 (((cfg0.win 0).blk t).view.emb _) = _
  refine congrArg _ (funext fun a => Fin.ext ?_)
  match a with
  | ⟨0, _⟩ => show win0_0.index t (0 : Fin 3) * 1 + 1 * 0 = 0; omega
  | ⟨1, _⟩ => show win0_0.index t (1 : Fin 3) * 256 + 1 * p.val = r.val; omega
  | ⟨2, _⟩ => show win0_0.index t (2 : Fin 3) * 10000 + 1 * k.val = k.val; omega

/-- WHAT POINT `t` WRITES BACK is block `t` of the layer of the four arguments. -/
theorem flushed_eq (c : Dev nD) (t : Fin cfg0.N) :
    (dats m 0 c).flushed 4 t
      = ((cfg0.win 4).blk t).view.read (Elt Ideal)
          (layer (V m c main_arg0) (V m c main_arg1) (V m c main_arg2) (m ((c : Thread nD τ).loc main_arg3))) := by
  show (cfg0.win 4).cut (grid0.coords t) ((dats m 0 c).after 4 t) = _
  rw [after_4]
  funext y
  obtain ⟨-, -, -, i3, i4, -, -, -, x3, xe⟩ := idx_facts t
  have hp : (y 0).val < win0_4.xsize (grid0.coords t) (0 : Fin 2) := (y 0).isLt
  have hq : (y 1).val < 128 := lt_of_lt_of_eq (y 1).isLt x3
  have hp' : (y 0).val < 256 := lt_of_lt_of_le hp (win0_4.xsize_le (grid0.coords t) 0)
  have hr : t.val * 256 + (y 0).val < 10000 := by omega
  have ey : win0_4.xinj (grid0.coords t) y = ix2 (⟨(y 0).val, hp'⟩ : Fin 256) (⟨(y 1).val, hq⟩ : Fin 128) := by
    funext a
    match a with
    | ⟨0, _⟩ => rfl
    | ⟨1, _⟩ => rfl
  have ee : ((cfg0.win 4).blk t).view.emb y = ix2 (⟨t.val * 256 + (y 0).val, hr⟩ : Fin 10000) (⟨(y 1).val, hq⟩ : Fin 128) := by
    funext a; apply Fin.ext
    match a with
    | ⟨0, _⟩ => show win0_4.index t (0 : Fin 2) * 256 + 1 * (y 0).val = t.val * 256 + (y 0).val; omega
    | ⟨1, _⟩ => show win0_4.index t (1 : Fin 2) * 128 + 1 * (y 1).val = (y 1).val; omega
  show outBand m c t (win0_4.xinj (grid0.coords t) y) = layer _ _ _ _ (((cfg0.win 4).blk t).view.emb y)
  rw [ey, ee]
  unfold outBand layer
  rw [pay2_apply]
  exact normRow_congr (fun k => adjBand_apply m c t _ k hp _ rfl) (fun k q => hid_apply m c k q) (fun q => bblk_apply m c t q) _

/-! ## The forty blocks cover the array -/

/-- An index of the result array is in point `t`'s block iff its row is among the block's rows inside the array. -/
theorem mem_blk (t : Fin cfg0.N) (i : S10000x128.Idx) :
    i ∈ ((cfg0.win 4).blk t).view.set ↔ t.val * 256 ≤ (i 0).val ∧ (i 0).val < t.val * 256 + win0_4.xsize (grid0.coords t) (0 : Fin 2) := by
  obtain ⟨-, -, -, i3, i4, -, -, -, x3, -⟩ := idx_facts t
  show i ∈ ((View.whole main_v0).slice (win0_4.rect t)).set ↔ _
  rw [View.set_slice_whole, Rect.mem_set_unit]
  have h1 : (i 1).val < 128 := (i 1).isLt
  constructor
  · intro h
    have h0 : win0_4.index t (0 : Fin 2) * 256 ≤ (i 0).val ∧ (i 0).val < win0_4.index t (0 : Fin 2) * 256 + win0_4.xsize (grid0.coords t) (0 : Fin 2) := h 0
    omega
  · intro h a
    match a with
    | ⟨0, _⟩ =>
      show win0_4.index t (0 : Fin 2) * 256 ≤ (i 0).val ∧ (i 0).val < win0_4.index t (0 : Fin 2) * 256 + win0_4.xsize (grid0.coords t) (0 : Fin 2)
      omega
    | ⟨1, _⟩ =>
      show win0_4.index t (1 : Fin 2) * 128 ≤ (i 1).val ∧ (i 1).val < win0_4.index t (1 : Fin 2) * 128 + win0_4.xsize (grid0.coords t) (1 : Fin 2)
      omega

/-- Every row is in the band of its number divided by 256. -/
theorem cover (i : S10000x128.Idx) : ∃ t : Fin cfg0.N, (cfg0.win 4).flush t = true ∧ i ∈ ((cfg0.win 4).blk t).view.set := by
  have h0 : (i 0).val < 10000 := (i 0).isLt
  have hlt : (i 0).val / 256 < cfg0.N := by rw [show cfg0.N = 40 from N_0]; omega
  refine ⟨⟨(i 0).val / 256, hlt⟩, flush0_4 _, ?_⟩
  rw [mem_blk]
  obtain ⟨-, -, -, -, -, -, -, -, -, xe⟩ := idx_facts ⟨(i 0).val / 256, hlt⟩
  have xe' : (i 0).val / 256 * 256 + win0_4.xsize (grid0.coords ⟨(i 0).val / 256, hlt⟩) (0 : Fin 2) = min 10000 ((i 0).val / 256 * 256 + 256) := xe
  show (i 0).val / 256 * 256 ≤ (i 0).val ∧ (i 0).val < (i 0).val / 256 * 256 + win0_4.xsize (grid0.coords ⟨(i 0).val / 256, hlt⟩) (0 : Fin 2)
  omega

/-- THE RESULT ARRAY after the run: the layer of the four arguments as launched. -/
theorem final (c : Dev nD) :
    (dats m 0 c).arrAt 4 cfg0.N
      = layer (m ((c : Thread nD τ).loc main_arg0)) (m ((c : Thread nD τ).loc main_arg1)) (m ((c : Thread nD τ).loc main_arg2))
          (m ((c : Thread nD τ).loc main_arg3)) := by
  rw [← V_main_arg0 m c, ← V_main_arg1 m c, ← V_main_arg2 m c]
  exact (dats m 0 c).arrAt_eq_of_cover 4 _ (fun t _ => flushed_eq m c t) cover

/-! ## The run, read -/

/-- Every weakly fair execution of the idealized kernel terminates with the result array at the layer of the
    arguments and the arguments unchanged. -/
theorem run : θ_run defs (onTc (τ := τ) (main (F := Ideal))) ⟨m, fun _ => 0, ρ⟩ fun r => ∀ c : Dev nD,
      r.2.mem ((c.tc : Thread nD τ).loc main_v0)
        = layer (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans (final m c),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c)⟩)
    (run_main m ρ (rows_inside m))

end Cert.KernelIdeal.KValue

end
-- ==== Proof.RefValue.lean ====
/-
  The reference computes the layer.

  Its twenty host operations, read one at a time at an entry: the two `dot_general`s are the sums of the
  specification (the second over the first), the zero array added before the bias adds nothing, the row sum of
  squares starts from the zero word, and the host's square root and quotient are the extended reals' own.
-/
import proofs.«144337_g32040456028641_cont_8to1_b_1227_8_alg».proof.Proof.Gen.ReferenceIdeal.Read
import proofs.«144337_g32040456028641_cont_8to1_b_1227_8_alg».proof.Proof.Spec

noncomputable section

open scoped BigOperators

namespace Cert.ReferenceIdeal.RefValue

open Cert.ReferenceIdeal Cert.ReferenceIdeal.Read Cert.GcnSpec
open Idealize.ShloMosaic Idealize.ShloMosaic.ValueIdx

variable (x0 : (⟨S10000x128, .f32⟩ : BufTy).Contents (Elt Ideal)) (x1 : (⟨S1x10000x10000, .f32⟩ : BufTy).Contents (Elt Ideal))
  (x2 : (⟨S1x128x128, .f32⟩ : BufTy).Contents (Elt Ideal)) (x3 : (⟨S128, .f32⟩ : BufTy).Contents (Elt Ideal))

/-- The first product at `(k, q)`: the hidden features. -/
theorem v3_apply (k : Fin 10000) (q : Fin 128) : val_main_v3 (F := Ideal) x0 x2 (ix2 k q) = hiddenAt x0 x2 k q := by
  rw [val_main_v3_apply]
  unfold hiddenAt
  refine Finset.sum_congr rfl fun j _ => ?_
  rw [val_main_v2_apply]
  refine congrArg₂ (· * ·) (congrArg x0 ?_) (congrArg x2 ?_)
  · funext a
    match a with
    | ⟨0, _⟩ => rfl
    | ⟨1, _⟩ => rfl
  · funext a
    match a with
    | ⟨0, _⟩ => rfl
    | ⟨1, _⟩ => exact Fin.ext (by show (j.val * 128 + q.val) / 128 % 128 = j.val; have := j.isLt; have := q.isLt; omega)
    | ⟨2, _⟩ => exact Fin.ext (by show (j.val * 128 + q.val) % 128 = q.val; have := j.isLt; have := q.isLt; omega)

/-- The layer before normalization at `(r, q)`. -/
theorem v8_apply (r : Fin 10000) (q : Fin 128) :
    val_main_v8 (F := Ideal) x0 x1 x2 x3 (ix2 r q)
      = pre (fun k => x1 (ix3 (0 : Fin 1) r k)) (hiddenAt x0 x2) (fun q => x3 (ix1 q)) q := by
  rw [val_main_v8_apply, val_main_v5_apply, val_main_v0_apply, val_main_cst_apply, val_main_v4_apply, val_main_v7_apply,
    val_main_v6_apply]
  unfold pre
  simp only [Ideal.addf_def, Ideal.ofBits_def, Ideal.ofBits_zero_f32, zero_add]
  refine congrArg₂ (· + ·) (Finset.sum_congr rfl fun k _ => ?_) (congrArg x3 ?_)
  · rw [val_main_v1_apply]
    refine congrArg₂ (· * ·) (congrArg x1 ?_) ?_
    · funext a
      match a with
      | ⟨0, _⟩ => rfl
      | ⟨1, _⟩ => exact Fin.ext (by show (r.val * 10000 + k.val) / 10000 % 10000 = r.val; have := r.isLt; have := k.isLt; omega)
      | ⟨2, _⟩ => exact Fin.ext (by show (r.val * 10000 + k.val) % 10000 = k.val; have := r.isLt; have := k.isLt; omega)
    · exact (congrArg (val_main_v3 (F := Ideal) x0 x2) (funext fun a => by
        match a with
        | ⟨0, _⟩ => rfl
        | ⟨1, _⟩ => rfl)).trans (v3_apply x0 x2 k q)
  · funext a
    match a with
    | ⟨0, _⟩ => rfl

/-- The reference's result is the layer of its four arguments. -/
theorem ref_is_layer : val_main_v16 (F := Ideal) x0 x1 x2 x3 = layer x0 x1 x2 x3 := by
  funext i
  obtain ⟨r, q, rfl⟩ : ∃ (r : Fin 10000) (q : Fin 128), i = ix2 r q := ⟨i 0, i 1, eq_ix2 i⟩
  rw [val_main_v16_apply, val_main_v15_apply, val_main_v14_apply, val_main_v12_apply, val_main_v13_apply, val_main_cst_1_apply,
    val_main_v11_apply, val_main_v10_apply, val_main_cst_0_apply, v8_apply]
  unfold layer normRow
  simp only [Ideal.hostDivf_def, Ideal.maximumf_def, Ideal.hostUnary_sqrt_def, Ideal.ofBits_def, Ideal.ofBits_zero_f32, zero_add]
  refine congrArg₂ Ideal.div rfl (congrArg₂ max (congrArg Ideal.sqrt (Finset.sum_congr rfl fun k _ => ?_)) rfl)
  rw [val_main_v9_apply]
  simp only [Ideal.mulf_def]
  have e : idx_main_v10 (idx_main_v11 (idx_main_v15 (ix2 r q))) k = ix2 r k := by
    funext a
    match a with
    | ⟨0, _⟩ => rfl
    | ⟨1, _⟩ => rfl
  rw [e, v8_apply]

end Cert.ReferenceIdeal.RefValue

end
-- ==== Proof.lean ====
/-
  A fused graph-convolution layer against its jnp reference, on the extended reals.

  Both programs compute, for features `x`, one dense adjacency support `a`, one weight matrix `w` and a bias `b`,
  the rows of `a · (x · w) + b` divided by the larger of each row's Euclidean norm and a constant both share. The kernel
  walks forty bands of 256 adjacency rows, keeps `x · w` in a scratch buffer from the first band on, and writes each
  band's normalized rows; the reference is twenty host operations. On the extended reals the kernel's narrowing of
  its matrix operands to bf16 is the identity, both matrix products are plain sums, and the zero array the reference
  adds first adds nothing: so the two results are one function of the arguments (`Cert.GcnSpec.layer`), index by index,
  with no use of the inputs' finiteness.

  The frames: the word-level kernel's from a run that says nothing of the result array (at the word level the
  matrix unit's result is not known row by row, and the last band's buffer holds rows nothing names); the idealized
  kernel's from the run that names the result array; the reference's from its run. The idealization rewrote no
  operation, so there is nothing to preserve.
-/
import proofs.«144337_g32040456028641_cont_8to1_b_1227_8_alg».proof.Defs
import proofs.«144337_g32040456028641_cont_8to1_b_1227_8_alg».proof.Proof.Gen.Kernel
import proofs.«144337_g32040456028641_cont_8to1_b_1227_8_alg».proof.Proof.Gen.KernelIdeal
import proofs.«144337_g32040456028641_cont_8to1_b_1227_8_alg».proof.Proof.Gen.ReferenceIdeal
import proofs.«144337_g32040456028641_cont_8to1_b_1227_8_alg».proof.Proof.Gen.Pre_finite_inputs
import proofs.«144337_g32040456028641_cont_8to1_b_1227_8_alg».proof.Proof.Gen.ReferenceIdeal.Run
import proofs.«144337_g32040456028641_cont_8to1_b_1227_8_alg».proof.Proof.Gen.ReferenceIdeal.Read
import proofs.«144337_g32040456028641_cont_8to1_b_1227_8_alg».proof.Proof.KernelBody
import proofs.«144337_g32040456028641_cont_8to1_b_1227_8_alg».proof.Proof.KernelValue
import proofs.«144337_g32040456028641_cont_8to1_b_1227_8_alg».proof.Proof.RefValue
import Idealize.ShloMosaic.Adequacy
import Idealize.ShloMosaic.Init

noncomputable section

namespace Cert.Proof

open Idealize.ShloMosaic Idealize.SL.Sem

/-- The word-level kernel runs to the end and keeps its arguments. -/
theorem frame_k : @Cert.frame_Kernel Cert.Kernel.Gen.facts Cert.Pre_finite_inputs.Gen.facts :=
  fun m ρ _ => Cert.Kernel.Body.frame_forget (F := Bits) m ρ

/-- So does the idealized kernel: its value run, the result dropped. -/
theorem frame_ki : @Cert.frame_KernelIdeal Cert.KernelIdeal.Gen.facts Cert.Pre_finite_inputs.Gen.facts :=
  fun m ρ _ => (θ_run Cert.KernelIdeal.defs _ _).mono (fun _ h c => (h c).2) (Cert.KernelIdeal.KValue.run m ρ)

/-- And the reference: its run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both programs end with the layer of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq (F := Ideal) _ _ _ _).trans ?_
  rw [Cert.ReferenceIdeal.RefValue.ref_is_layer, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
